-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024x1024 .f32) (main_arg2 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  natLt_1_32 : 1 < 32
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .i1⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«107249_j73890617361016_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibBiasLayer.lean ====
/-
  A dense layer with a bias row, as plain functions of matrices of extended reals, and each way a program spells it.

  `affine x w b` is the `[a, N]` matrix whose entry `(r, q)` is the row product `∑ₖ x (r, k) · w (k, q)` plus the
  bias `b q`; `reluAffine x w b` clamps every entry of it at zero from below. Both are stated entry by entry, so
  they read the same on a block of rows and on the whole matrix: entry `(r, q)` depends on `x` only through its
  row `r` (`affine_congr`, `reluAffine_congr`).

  A vector program lays the bias `[N]` out as a row `[1, N]` by a shape cast and over the `a` rows by a
  broadcast; a host program does both steps by `broadcast_in_dim`. Either way the laid-out bias read at `(r, q)`
  is `b q` (`row_over_rows_apply`, `host_row_over_rows_apply`). With the matrix product into a zero accumulator,
  respectively the `dot_general`, read as the row product, the whole layer read at `(r, q)` at the ideal values is
  `affine` (`vector_affine_apply`, `host_affine_apply`), and followed by the maximum against a splat of zero it is
  `reluAffine` (`vector_reluAffine_apply`, `host_reluAffine_apply`).

  All are generic in the extents.
-/
import Idealize.ShloMosaic.Lib.Pipeline.Value
import Idealize.ShloMosaic.Lib.ValueIdx
import Idealize.ShloMosaic.Lib.ValueLayout
import Idealize.ShloMosaic.PureOps.Ideal.Laws
import proofs.«107249_j73890617361016_1_alg».proof.Proof.LibDenseLayer

noncomputable section

namespace Cert.BiasLayer

open Idealize.ShloMosaic Idealize.ShloMosaic.ValueIdx Cert.DenseLayer

/-- A vector of `n` extended reals, indexed as the arrays are. -/
abbrev Row (n : ℕ) : Type := (⟨1, ![n]⟩ : Shape).Idx → EReal

variable {a K N : ℕ}

/-! ## The layer -/

/-- `x · w + b`, entry by entry: at `(r, q)` the row product of row `r` with column `q`, plus `b q`. -/
def affine (x : Mat a K) (w : Mat K N) (b : Row N) : Mat a N :=
  fun i => prodRow x w (i 0) (i 1) + b (ix1 (i 1))

/-- `x · w + b` clamped at zero from below, entry by entry (the zero written as the word a program writes). -/
def reluAffine (x : Mat a K) (w : Mat K N) (b : Row N) : Mat a N :=
  fun i => max (affine x w b i) (Ideal.ofBits .f32 0x00000000#32)

theorem affine_apply (x : Mat a K) (w : Mat K N) (b : Row N) (r : Fin a) (q : Fin N) :
    affine x w b (ix2 r q) = prodRow x w r q + b (ix1 q) := rfl

theorem reluAffine_apply (x : Mat a K) (w : Mat K N) (b : Row N) (r : Fin a) (q : Fin N) :
    reluAffine x w b (ix2 r q) = max (affine x w b (ix2 r q)) (Ideal.ofBits .f32 0x00000000#32) := rfl

/-- An entry of the layer depends on the left matrix only through the entry's row. -/
theorem affine_congr {a' : ℕ} (x : Mat a K) (x' : Mat a' K) (w : Mat K N) (b : Row N) (r : Fin a) (r' : Fin a')
    (h : ∀ k, x (ix2 r k) = x' (ix2 r' k)) (q : Fin N) : affine x w b (ix2 r q) = affine x' w b (ix2 r' q) := by
  rw [affine_apply, affine_apply, prodRow_congr x x' w r r' h]

/-- The same for the clamped layer. -/
theorem reluAffine_congr {a' : ℕ} (x : Mat a K) (x' : Mat a' K) (w : Mat K N) (b : Row N) (r : Fin a) (r' : Fin a')
    (h : ∀ k, x (ix2 r k) = x' (ix2 r' k)) (q : Fin N) :
    reluAffine x w b (ix2 r q) = reluAffine x' w b (ix2 r' q) := by
  rw [reluAffine_apply, reluAffine_apply, affine_congr x x' w b r r' h q]

/-! ## The bias laid over the rows -/

variable {α : Type}

/-- A vector `[N]` cast to the row `[1, N]` reads, at `(u, q)`, the vector at `q`, whatever the unit coordinate. -/
theorem shapeCast_n_1n_apply (v : (⟨1, ![N]⟩ : Shape).Idx → α) (h : (⟨1, ![N]⟩ : Shape).ShapeCasts ⟨2, ![1, N]⟩)
    (u : Fin 1) (q : Fin N) : shapeCast ⟨2, ![1, N]⟩ v h (ix2 u q) = v (ix1 q) :=
  shapeCast_apply v h _ _ (by
    have hu : u.val = 0 := by omega
    rw [Shape.rowMajor_val_two, Shape.rowMajor_val_one]
    show q.val = u.val * N + q.val
    rw [hu, Nat.zero_mul, Nat.zero_add])

/-- A vector program's bias: the vector as a row, broadcast over `a` rows, is `v q` at `(r, q)`. -/
theorem row_over_rows_apply (v : (⟨1, ![N]⟩ : Shape).Idx → α) (hc : (⟨1, ![N]⟩ : Shape).ShapeCasts ⟨2, ![1, N]⟩)
    (hb : (⟨2, ![1, N]⟩ : Shape).Broadcasts ⟨2, ![a, N]⟩) (r : Fin a) (q : Fin N) :
    broadcastTo ⟨2, ![a, N]⟩ (shapeCast ⟨2, ![1, N]⟩ v hc) hb (ix2 r q) = v (ix1 q) :=
  (broadcastTo_1b_ab_apply _ hb r q).trans (shapeCast_n_1n_apply v hc 0 q)

/-- A host program's bias: the vector broadcast into the row `[1, N]` along its second axis, then over `a` rows,
    is `v q` at `(r, q)`. -/
theorem host_row_over_rows_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    broadcastInDim ⟨2, ![a, N]⟩ ![0, 1] h2 (broadcastInDim ⟨2, ![1, N]⟩ ![1] h1 v) (ix2 r q) = v (ix1 q) := by
  have hq : q.val = if N = 1 then 0 else q.val := by
    split
    · have := q.isLt; omega
    · rfl
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ => exact hq
  · match ax with
    | ⟨0, _⟩ => exact hq

/-- A host program's splat of a scalar constant reads that constant everywhere. -/
theorem host_splat_apply {s : Shape} (c : (⟨0, ![]⟩ : Shape).Idx → α) (h : (⟨0, ![]⟩ : Shape).BroadcastsInDim s ![])
    (i : s.Idx) : broadcastInDim s ![] h c i = c ix0 :=
  broadcastInDim_apply _ h c i ix0 fun ax => ax.elim0

/-! ## The layer as a vector program and as a host program spell it -/

section Spellings

variable {φ₁ φ₂ : FTy} {d : DotDims ⟨2, ![a, K]⟩ ⟨2, ![K, N]⟩ ⟨2, ![a, N]⟩}
  (x : FVec Ideal ⟨2, ![a, K]⟩ φ₁) (w : FVec Ideal ⟨2, ![K, N]⟩ φ₂) (b : FVec Ideal ⟨1, ![N]⟩ .f32)

/-- A vector program's product into the zero accumulator plus the laid-out bias is `affine`, entry by entry. -/
theorem vector_affine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    addf (matmul d prec x w (constant ⟨2, ![a, N]⟩ .f32 0x00000000#32))
        (broadcastTo ⟨2, ![a, N]⟩ (shapeCast ⟨2, ![1, N]⟩ b hc) hb) (ix2 r q)
      = affine x w b (ix2 r q) := by
  show FloatOps.matmul d prec x w (constant ⟨2, ![a, N]⟩ .f32 0x00000000#32) (ix2 r q)
      + broadcastTo ⟨2, ![a, N]⟩ (shapeCast ⟨2, ![1, N]⟩ b hc) hb (ix2 r q) = _
  rw [matmul_zero_apply hd, row_over_rows_apply]
  rfl

/-- Followed by the maximum against a splat of the zero word it is `reluAffine`. -/
theorem vector_reluAffine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    maximumf (addf (matmul d prec x w (constant ⟨2, ![a, N]⟩ .f32 0x00000000#32))
        (broadcastTo ⟨2, ![a, N]⟩ (shapeCast ⟨2, ![1, N]⟩ b hc) hb))
        (broadcast ⟨2, ![a, N]⟩ (Scalar.ofBits (F := Ideal) .f32 0x00000000#32)) (ix2 r q)
      = reluAffine x w b (ix2 r q) := by
  show max (addf (matmul d prec x w (constant ⟨2, ![a, N]⟩ .f32 0x00000000#32))
        (broadcastTo ⟨2, ![a, N]⟩ (shapeCast ⟨2, ![1, N]⟩ b hc) hb) (ix2 r q)) (Ideal.ofBits .f32 0x00000000#32) = _
  rw [vector_affine_apply x w b hd prec hc hb r q]
  rfl

/-- A host program's `dot_general` plus the laid-out bias is `affine`, entry by entry. -/
theorem host_affine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    addf (Host.dotGeneral d prec x w)
        (broadcastInDim ⟨2, ![a, N]⟩ ![0, 1] h2 (broadcastInDim ⟨2, ![1, N]⟩ ![1] h1 b)) (ix2 r q)
      = affine x w b (ix2 r q) := by
  show FloatOps.dotGeneral d prec .single x w (ix2 r q)
      + broadcastInDim ⟨2, ![a, N]⟩ ![0, 1] h2 (broadcastInDim ⟨2, ![1, N]⟩ ![1] h1 b) (ix2 r q) = _
  rw [dotGeneral_apply hd, host_row_over_rows_apply]
  rfl

/-- Followed by the maximum against a host splat of the zero word it is `reluAffine`. -/
theorem host_reluAffine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) (r : Fin a) (q : Fin N) :
    maximumf (addf (Host.dotGeneral d prec x w)
        (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32)) (ix2 r q)
      = reluAffine x w b (ix2 r q) := by
  show max (addf (Host.dotGeneral d prec x w)
        (broadcastInDim ⟨2, ![a, N]⟩ ![0, 1] h2 (broadcastInDim ⟨2, ![1, N]⟩ ![1] h1 b)) (ix2 r q))
      (broadcastInDim ⟨2, ![a, N]⟩ ![] h0 (constant (F := Ideal) ⟨0, ![]⟩ .f32 0x00000000#32) (ix2 r q)) = _
  rw [host_affine_apply x w b hd prec h1 h2 r q, host_splat_apply]
  rfl

end Spellings

end Cert.BiasLayer

end
-- ==== Proof.GatedSnapLayer.lean ====
/-
  A dense layer with a bias row whose result is gated by its own sign and snapped to a fixed-point grid, as a plain
  function of matrices of extended reals.

  For an entry `y` of `x · w + b` the result is `snap (y · [y > 0])`: `[y > 0]` is one where `y` exceeds zero and
  zero elsewhere — the one-bit word a comparison writes, read as an unsigned number —, and
  `snap v = round (v · 2¹⁶) / 2¹⁶` rounds to the nearest multiple of `2⁻¹⁶`, ties to the even one. The constants are
  kept as the words a program writes; the same word stands on both sides of every equation below, so none is evaluated.

  A vector program widens the comparison's bit to 32 bits without sign and reads that word as a signed number; a host
  program reads the bit itself as an unsigned number. A 32-bit word that holds zero or one is the same number read
  either way (`widened_signed`), so both spellings of the gate, and with them both spellings of the whole tail after
  `x · w + b`, are `gatedSnap` entry by entry (`vector_tail_apply`, `host_tail_apply`). The tail is pointwise, so these
  two are generic in the shape.
-/
import Idealize.ShloMosaic.PureOps.Ideal
import Idealize.ShloMosaic.Lib.Pipeline.Value
import Idealize.ShloMosaic.Lib.ValueIdx
import proofs.«107249_j73890617361016_1_alg».proof.Proof.LibBiasLayer

noncomputable section

namespace Cert.GatedSnap

open Idealize.ShloMosaic Idealize.ShloMosaic.ValueIdx Cert.DenseLayer Cert.BiasLayer

/-! ## The function -/

/-- Whether `y` exceeds zero, as the one-bit word a comparison writes (the zero written as the word a program writes). -/
def positive (y : EReal) : BitVec 1 :=
  FloatOps.cmpf (F := Ideal) (φ := .f32) .ogt y (Ideal.ofBits .f32 0x00000000#32)

/-- One where `y` exceeds zero, zero elsewhere. -/
def gate (y : EReal) : EReal := (((positive y).toNat : ℝ) : EReal)

/-- The nearest multiple of `2⁻¹⁶`, ties to even: scale by `2¹⁶`, round to an integer, scale back. -/
def snap (v : EReal) : EReal :=
  Ideal.div (Ideal.liftRound Ideal.roundHalfEven (v * Ideal.ofBits .f32 0x47800000#32)) (Ideal.ofBits .f32 0x47800000#32)

/-- `y` where it exceeds zero and zero elsewhere, snapped to the grid. -/
def gatedSnap (y : EReal) : EReal := snap (y * gate y)

variable {a K N : ℕ}

/-- The layer: `gatedSnap` of every entry of `x · w + b`. -/
def layer (x : Mat a K) (w : Mat K N) (b : Row N) : Mat a N := fun i => gatedSnap (affine x w b i)

theorem layer_apply (x : Mat a K) (w : Mat K N) (b : Row N) (r : Fin a) (q : Fin N) :
    layer x w b (ix2 r q) = gatedSnap (prodRow x w r q + b (ix1 q)) := rfl

/-! ## The gate's two spellings -/

/-- A one-bit word widened to 32 bits without sign holds zero or one, and reads the same signed or unsigned. -/
theorem widened_signed (b : BitVec 1) : (b.setWidth 32).toInt = (b.toNat : ℤ) := by
  have hb : b.toNat < 2 := b.isLt
  rw [BitVec.toInt_eq_toNat_of_lt (by rw [BitVec.toNat_setWidth]; omega), BitVec.toNat_setWidth]
  congr 1
  omega

variable {s : Shape}

/-- A vector program's tail after `x · w + b` — the comparison against a splat of zero, its bit widened and read as
    a signed number, the product with it, and the scaling, rounding and scaling back — is `gatedSnap` entry by entry. -/
theorem vector_tail_apply (y : FVec Ideal s .f32) (h : 1 < 32) (i : s.Idx) :
    divf (roundeven (mulf (mulf y (sitofp .f32 (extui 32 (cmpf .ogt y (broadcast s (Scalar.ofBits (F := Ideal) .f32 0x00000000#32))) h)))
        (broadcast s (Scalar.ofBits (F := Ideal) .f32 0x47800000#32))))
      (broadcast s (Scalar.ofBits (F := Ideal) .f32 0x47800000#32)) i
      = gatedSnap (y i) := by
  show Ideal.div (Ideal.liftRound Ideal.roundHalfEven
      ((y i * ((((positive (y i)).setWidth 32).toInt : ℝ) : EReal)) * Ideal.ofBits .f32 0x47800000#32))
      (Ideal.ofBits .f32 0x47800000#32) = _
  rw [widened_signed]
  rfl

/-- A host program's tail — the comparison against a host splat of zero, its bit read as an unsigned number, the
    product with it, the scaling against a host splat, the host's rounding and the host's quotient — is `gatedSnap`
    entry by entry. -/
theorem host_tail_apply (y : FVec Ideal s .f32) (h0 : (⟨0, ![]⟩ : Shape).BroadcastsInDim s ![]) (i : s.Idx) :
    Host.divf (Host.roundeven (mulf (mulf y (uitofp .f32 (cmpf .ogt y (broadcastInDim s ![] h0 (constant (F := Ideal) ⟨0, ![]⟩ .f32 0x00000000#32)))))
        (broadcastInDim s ![] h0 (constant (F := Ideal) ⟨0, ![]⟩ .f32 0x47800000#32))))
      (broadcastInDim s ![] h0 (constant (F := Ideal) ⟨0, ![]⟩ .f32 0x47800000#32)) i
      = gatedSnap (y i) := by
  show Ideal.div (Ideal.liftRound Ideal.roundHalfEven
      ((y i * (((FloatOps.cmpf (F := Ideal) (φ := .f32) .ogt (y i)
          (broadcastInDim s ![] h0 (constant (F := Ideal) ⟨0, ![]⟩ .f32 0x00000000#32) i)).toNat : ℝ) : EReal))
        * broadcastInDim s ![] h0 (constant (F := Ideal) ⟨0, ![]⟩ .f32 0x47800000#32) i))
      (broadcastInDim s ![] h0 (constant (F := Ideal) ⟨0, ![]⟩ .f32 0x47800000#32) i) = _
  rw [host_splat_apply, host_splat_apply]
  rfl

end Cert.GatedSnap

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«107249_j73890617361016_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.KernelBlock.lean ====
/-
  What the kernel body stores, read at an entry.

  The body multiplies its block of 512 rows of `x` by the whole of `w` into a zero accumulator (the operands narrowed
  to a shorter float format first, which changes nothing of an exact value), adds the bias — held as a `[1, 1024]` row
  and laid over the 512 rows by a broadcast — and applies the gate and the snap to the grid. At row `p` and column `q`
  of the block this is `gatedSnap` of the row product of row `p` with column `q` plus the bias row's entry `q`.
-/
import proofs.«107249_j73890617361016_1_alg».proof.Proof.Gen.KernelIdeal.Skeleton
import proofs.«107249_j73890617361016_1_alg».proof.Proof.GatedSnapLayer
import proofs.«107249_j73890617361016_1_alg».proof.Proof.LibPlainDot

noncomputable section

namespace Cert.KernelIdeal.BlockValue

open Idealize.ShloMosaic Idealize.ShloMosaic.ValueIdx Cert.KernelIdeal Cert.KernelIdeal.Gen
open Cert.DenseLayer Cert.BiasLayer Cert.GatedSnap

/-- The body's product sums the left block's second axis against the right operand's first. -/
theorem plain : PlainDot dot_S512x1024_S1024x1024_S512x1024_1_0_0_1_n_n :=
  plainDot_of_axes _ rfl rfl rfl rfl rfl rfl

/-- The stored value at `(p, q)`: the gated, snapped sum of row `p` of the block against column `q` of the weights
    and entry `q` of the bias row. -/
theorem stored_apply (x0 : FVec Ideal S512x1024 .f32) (x1 : FVec Ideal S1024x1024 .f32) (x2 : FVec Ideal S1x1024 .f32)
    (p : Fin 512) (q : Fin 1024) :
    k0_pay1 (F := Ideal) x0 x1 x2 (ix2 p q) = gatedSnap (prodRow x0 x1 p q + x2 (ix2 (0 : Fin 1) q)) := by
  unfold k0_pay1
  refine (vector_tail_apply _ natLt_1_32 (ix2 p q)).trans (congrArg gatedSnap ?_)
  show FloatOps.matmul dot_S512x1024_S1024x1024_S512x1024_1_0_0_1_n_n none (truncf .bf16 x0 bitsLt_bf16_f32)
        (truncf .bf16 x1 bitsLt_bf16_f32) (constant S512x1024 .f32 0x00000000#32) (ix2 p q)
      + broadcastTo S512x1024 (shapeCast S1x1024 x2 shapeCasts_S1x1024_S1x1024) broadcasts_S1x1024_S512x1024 (ix2 p q) = _
  rw [matmul_zero_apply plain, broadcastTo_1b_ab_apply, shapeCast_self]
  rfl

end Cert.KernelIdeal.BlockValue

end
-- ==== Proof.KernelArray.lean ====
/-
  The kernel's result array is the layer of its argument arrays.

  The grid has 16 points. Point `t` reads rows `512 t … 512 t + 511` of `x`, the whole of `w` and the whole bias row,
  and writes rows `512 t … 512 t + 511` of the result. The bias row the kernel reads is the bias vector `[1024]`
  reshaped to `[1, 1024]` before the launch, so its entry `(0, q)` is the vector's entry `q`. An entry `(r, q)` of the
  layer depends on `x` only through row `r`, so what point `t` writes back is the layer of the whole arrays read through
  the point's block; the 16 blocks cover the 8192 rows, so after the run the result array is the layer.
-/
import proofs.«107249_j73890617361016_1_alg».proof.Proof.Gen.KernelIdeal.Value
import proofs.«107249_j73890617361016_1_alg».proof.Proof.KernelBlock
import Idealize.ShloMosaic.Lib.Pipeline.Value
import Idealize.ShloMosaic.Lib.StableHlo.Run
import Idealize.ShloMosaic.Lib.Tactic

noncomputable section

namespace Cert.KernelIdeal.ArrayValue

open Cert.KernelIdeal Cert.KernelIdeal.Gen Cert.KernelIdeal.Value Cert.KernelIdeal.BlockValue
open Idealize.ShloMosaic Idealize.ShloMosaic.TcCoe Idealize.SL.Sem Idealize.ShloMosaic.ValueIdx
open Idealize.ShloMosaic.Pipeline (Dat)
open Cert.DenseLayer Cert.BiasLayer Cert.GatedSnap

variable (m : (ℓ : Loc nD τ sig) → Buf (Elt Ideal) ℓ) (ρ : Dev nD → PrngReg)

theorem origin : (![0, 0] : Fin 2 → Nat) = fun _ => 0 := funext fun a => by fin_cases a <;> rfl

/-- The layer of the three argument arrays as launched. -/
abbrev result (c : Dev nD) : Mat 8192 1024 :=
  layer (m ((c : Thread nD τ).loc main_arg0)) (m ((c : Thread nD τ).loc main_arg1)) (m ((c : Thread nD τ).loc main_arg2))

/-- The block indices, decided over the 16 points: the rows of `x` and of the result move with the point, the
    weights and the bias row stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The bias row as the region finds it: the bias vector reshaped before the launch. -/
theorem bias_row (c : Dev nD) :
    (V m c main_v0 : S1x1024.Idx → EReal) = shapeCast S1x1024 (m ((c : Thread nD τ).loc main_arg2)) shapeCasts_S1024_S1x1024 := by
  dsimp only [Gen.V, Gen.hostOps0]; after_results; rfl

/-- Its entry `(0, q)` is the bias vector's entry `q`. -/
theorem bias_row_apply (c : Dev nD) (q : Fin 1024) :
    (V m c main_v0 : S1x1024.Idx → EReal) (ix2 (0 : Fin 1) q) = m ((c : Thread nD τ).loc main_arg2) (ix1 q) := by
  rw [bias_row]
  exact shapeCast_n_1n_apply _ shapeCasts_S1024_S1x1024 0 q

/-- WHAT POINT `t` WRITES BACK is block `t` of the layer of the argument arrays. -/
theorem flushed_eq (c : Dev nD) (t : Fin cfg0.N) :
    (dats m 0 c).flushed 3 t = ((cfg0.win 3).blk t).view.read (Elt Ideal) (result m c) := by
  rw [flushed3]
  unfold out0_3
  rw [View.canon_unit_zero origin]
  simp only [View.ld_unit_zero (S := S512x1024) origin, View.ld_unit_zero (S := S1024x1024) origin,
    View.ld_unit_zero (S := S1x1024) origin]
  obtain ⟨e00, e01, e10, e11, e20, e21, e30, e31⟩ := block_indices t
  have hN : t.val < 16 := t.isLt
  funext j
  obtain ⟨p, q, rfl⟩ : ∃ (p : Fin 512) (q : Fin 1024), j = ix2 p q := ⟨j 0, j 1, eq_ix2 j⟩
  have hp : p.val < 512 := p.isLt
  show k0_pay1 (F := Ideal) (iblk m c 0 t) (iblk m c 1 t) (iblk m c 2 t) (ix2 p q)
    = result m c (((cfg0.win 3).blk t).view.emb (ix2 p q))
  refine (stored_apply (iblk m c 0 t) (iblk m c 1 t) (iblk m c 2 t) p q).trans ?_
  have h3 : ((cfg0.win 3).blk t).view.emb (ix2 p q) = ix2 (⟨t.val * 512 + p.val, by omega⟩ : Fin 8192) q := by
    funext a; apply Fin.ext
    match a with
    | ⟨0, _⟩ => show win0_3.index t (0 : Fin 2) * 512 + 1 * p.val = t.val * 512 + p.val; omega
    | ⟨1, _⟩ => show win0_3.index t (1 : Fin 2) * 1024 + 1 * q.val = q.val; omega
  rw [h3]
  refine Eq.trans (congrArg gatedSnap ?_) (layer_apply _ _ _ _ q).symm
  refine congrArg₂ (· + ·) (Finset.sum_congr rfl fun k _ => congrArg₂ (· * ·) ?_ ?_) ?_
  · show V m c main_arg0 (((cfg0.win 0).blk t).view.emb (ix2 p k)) = _
    rw [V_main_arg0]
    refine congrArg _ (funext fun a => Fin.ext ?_)
    match a with
    | ⟨0, _⟩ => show win0_0.index t (0 : Fin 2) * 512 + 1 * p.val = t.val * 512 + p.val; omega
    | ⟨1, _⟩ => show win0_0.index t (1 : Fin 2) * 1024 + 1 * k.val = k.val; omega
  · show V m c main_arg1 (((cfg0.win 1).blk t).view.emb (ix2 k q)) = _
    rw [V_main_arg1]
    refine congrArg _ (funext fun a => Fin.ext ?_)
    match a with
    | ⟨0, _⟩ => show win0_1.index t (0 : Fin 2) * 1024 + 1 * k.val = k.val; omega
    | ⟨1, _⟩ => show win0_1.index t (1 : Fin 2) * 1024 + 1 * q.val = q.val; omega
  · show (V m c main_v0 : S1x1024.Idx → EReal) (((cfg0.win 2).blk t).view.emb (ix2 (0 : Fin 1) q)) = _
    have h2 : ((cfg0.win 2).blk t).view.emb (ix2 (0 : Fin 1) q) = ix2 (0 : Fin 1) q := by
      funext a; apply Fin.ext
      match a with
      | ⟨0, _⟩ => show win0_2.index t (0 : Fin 2) * 1 + 1 * 0 = 0; omega
      | ⟨1, _⟩ => show win0_2.index t (1 : Fin 2) * 1024 + 1 * q.val = q.val; omega
    rw [h2]
    exact bias_row_apply m c q

/-- An index of the result array is in point `t`'s block iff each coordinate is in the block's range on its axis. -/
theorem mem_block (t : Fin cfg0.N) (i : S8192x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v1).slice (win0_3.rect t)).set ↔ _
  rw [View.set_slice_whole, Rect.mem_set_unit]
  exact Iff.rfl

/-- Every entry of the result array is in some point's block: row `r` is in the block of point `r / 512`. -/
theorem covered (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 16 := N_0
  let t : Fin cfg0.N := ⟨(i 0).val / 512, by rw [hN]; omega⟩
  obtain ⟨-, -, -, -, -, -, e30, e31⟩ := block_indices t
  have ht : t.val = (i 0).val / 512 := rfl
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- THE ARRAY after the run is the layer of the argument arrays. -/
theorem final (c : Dev nD) : (dats m 0 c).arrAt 3 cfg0.N = result m c :=
  (dats m 0 c).arrAt_eq_of_cover 3 (result m c) (fun t _ => flushed_eq m c t) covered

/-- The kernel's run re-posted: the result array at the layer of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.ReferenceValue.lean ====
/-
  The reference's result is the layer.

  The reference multiplies the whole of `x` by `w`, adds the bias laid over the rows by two broadcasts, and applies the
  gate and the snap to the grid with the host's operations. Entry by entry that is `gatedSnap` of `x · w + b`.
-/
import proofs.«107249_j73890617361016_1_alg».proof.Proof.Gen.ReferenceIdeal.Read
import proofs.«107249_j73890617361016_1_alg».proof.Proof.GatedSnapLayer
import proofs.«107249_j73890617361016_1_alg».proof.Proof.LibPlainDot

noncomputable section

namespace Cert.ReferenceIdeal.RefValue

open Idealize.ShloMosaic Idealize.ShloMosaic.ValueIdx Cert.ReferenceIdeal Cert.ReferenceIdeal.Gen Cert.ReferenceIdeal.Read
open Cert.DenseLayer Cert.BiasLayer Cert.GatedSnap

/-- The reference's product sums the left operand's second axis against the right operand's first. -/
theorem plain : PlainDot dot_S8192x1024_S1024x1024_S8192x1024_1_0_0_1_n_n :=
  plainDot_of_axes _ rfl rfl rfl rfl rfl rfl

/-- The last stage of the reference, as a function of the three arguments, is `layer`. -/
theorem result_eq (x : FVec Ideal S8192x1024 .f32) (w : FVec Ideal S1024x1024 .f32) (b : FVec Ideal S1024 .f32) :
    val_main_v12 (F := Ideal) x w b = layer x w b := by
  funext i
  obtain ⟨r, q, rfl⟩ : ∃ (r : Fin 8192) (q : Fin 1024), i = ix2 r q := ⟨i 0, i 1, eq_ix2 i⟩
  rw [← val_main_v12_eq]
  refine (host_tail_apply _ bcast_S_S8192x1024 (ix2 r q)).trans (congrArg gatedSnap ?_)
  exact host_affine_apply x w b plain none bcast_S1024_S1x1024_1 bcast_S1x1024_S8192x1024_0_1 r q

end Cert.ReferenceIdeal.RefValue

end
-- ==== Proof.lean ====
/-
  A dense layer `x · w + b` over f32[8192, 1024] × f32[1024, 1024] + f32[1024], its result gated by its own sign and
  snapped to the fixed-point grid of `2⁻¹⁶`, computed by a kernel over 16 blocks of 512 rows against the same formula
  written with whole-array host operations.

  Over the extended reals both programs compute, at row `r` and column `q`,

      snap (y · [y > 0])   with   y = ∑ₖ x (r, k) · w (k, q) + b q,   snap v = round (v · 2¹⁶) / 2¹⁶,

  the rounding to the nearest integer with ties to even. The kernel narrows the operands of its product to a shorter
  float format, which is the identity on exact values; its product into a zero accumulator and the reference's
  contraction are the same sum over `k`; the kernel reads the gate's bit widened to 32 bits as a signed number and the
  reference reads the bit itself as an unsigned number, and a word holding zero or one is the same number either way;
  the two roundings and the two quotients are one function each. No law of the extended reals that could fail at an
  infinity is used: the two sides are the same expression term by term, so the finiteness of the inputs is never opened.

  `Proof/GatedSnapLayer.lean` states the function and reads both programs' tails at an entry, `Proof/KernelBlock.lean`
  reads what the kernel body stores at an entry of its block, `Proof/KernelArray.lean` assembles the 16 blocks into the
  whole result array, and `Proof/ReferenceValue.lean` reads the reference's last stage as the same function. The three
  frames are the generated runs; the idealization rewrote nothing, so `preserves` is `True`.
-/
import proofs.«107249_j73890617361016_1_alg».proof.Defs
import proofs.«107249_j73890617361016_1_alg».proof.Proof.Gen.Kernel
import proofs.«107249_j73890617361016_1_alg».proof.Proof.Gen.Kernel.Skeleton
import proofs.«107249_j73890617361016_1_alg».proof.Proof.Gen.Kernel.Launch
import proofs.«107249_j73890617361016_1_alg».proof.Proof.Gen.Kernel.Points
import proofs.«107249_j73890617361016_1_alg».proof.Proof.Gen.Kernel.Frame
import proofs.«107249_j73890617361016_1_alg».proof.Proof.Gen.KernelIdeal
import proofs.«107249_j73890617361016_1_alg».proof.Proof.Gen.KernelIdeal.Skeleton
import proofs.«107249_j73890617361016_1_alg».proof.Proof.Gen.KernelIdeal.Launch
import proofs.«107249_j73890617361016_1_alg».proof.Proof.Gen.KernelIdeal.Points
import proofs.«107249_j73890617361016_1_alg».proof.Proof.Gen.KernelIdeal.Frame
import proofs.«107249_j73890617361016_1_alg».proof.Proof.Gen.ReferenceIdeal
import proofs.«107249_j73890617361016_1_alg».proof.Proof.Gen.Pre_finite_inputs
import proofs.«107249_j73890617361016_1_alg».proof.Proof.Gen.KernelIdeal.Value
import proofs.«107249_j73890617361016_1_alg».proof.Proof.Gen.ReferenceIdeal.Run
import proofs.«107249_j73890617361016_1_alg».proof.Proof.Gen.ReferenceIdeal.Read
import proofs.«107249_j73890617361016_1_alg».proof.Proof.KernelArray
import proofs.«107249_j73890617361016_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on `x`, `w` and `b`, the kernel's result array ends at the layer of its arguments and the
    reference's result at the layer of its own; the arguments agree, so the two arrays are equal entry by entry. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
